-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg6 : FVec F S16 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16 .f32 := Host.absf main_arg6
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x64 .f32) (main_arg1 : IVec S1600000 32) (main_arg2 : IVec S1600000 32) (main_arg3 : FVec F S64x64 .f32) (main_arg4 : FVec F S64 .f32) (main_arg5 : FVec F S64x16 .f32) (main_arg6 : FVec F S16 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16 .f32 := Host.absf main_arg5
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg6 main_v13 main_v16
-- ==== Kernel.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S5000x64 : Shape := ⟨2, ![5000, 64]⟩
abbrev S1x64 : Shape := ⟨2, ![1, 64]⟩
abbrev S100000x16 : Shape := ⟨2, ![100000, 16]⟩
abbrev S5000x16 : Shape := ⟨2, ![5000, 16]⟩
abbrev S1x16 : Shape := ⟨2, ![1, 16]⟩

abbrev nBuf : Space → Nat
  | .hbm => 59
  | .vmem => 12
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S64x16, .f32⟩
  | .hbm, ⟨6, _⟩ => ⟨S16, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x64, .f32⟩
  | .hbm, ⟨16, _⟩ => ⟨S_, .f32⟩
  | .hbm, ⟨17, _⟩ => ⟨S100000x64, .f32⟩
  | .hbm, ⟨18, _⟩ => ⟨S1600000x1, .i32⟩
  | .hbm, ⟨19, _⟩ => ⟨S100000x64, .f32⟩
  | .hbm, ⟨20, _⟩ => ⟨S_, .f32⟩
  | .hbm, ⟨21, _⟩ => ⟨S1600000, .f32⟩
  | .hbm, ⟨22, _⟩ => ⟨S_, .f32⟩
  | .hbm, ⟨23, _⟩ => ⟨S100000, .f32⟩
  | .hbm, ⟨24, _⟩ => ⟨S1600000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x64, .f32⟩
  | .hbm, ⟨31, _⟩ => ⟨S100000x64, .f32⟩
  | .hbm, ⟨32, _⟩ => ⟨S100000x64, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x64, .f32⟩
  | .hbm, ⟨42, _⟩ => ⟨S_, .f32⟩
  | .hbm, ⟨43, _⟩ => ⟨S100000x64, .f32⟩
  | .hbm, ⟨44, _⟩ => ⟨S1600000x1, .i32⟩
  | .hbm, ⟨45, _⟩ => ⟨S100000x64, .f32⟩
  | .hbm, ⟨46, _⟩ => ⟨S_, .f32⟩
  | .hbm, ⟨47, _⟩ => ⟨S1600000, .f32⟩
  | .hbm, ⟨48, _⟩ => ⟨S_, .f32⟩
  | .hbm, ⟨49, _⟩ => ⟨S100000, .f32⟩
  | .hbm, ⟨50, _⟩ => ⟨S1600000x1, .i32⟩
  | .hbm, ⟨51, _⟩ => ⟨S100000, .f32⟩
  | .hbm, ⟨52, _⟩ => ⟨S_, .f32⟩
  | .hbm, ⟨53, _⟩ => ⟨S100000, .f32⟩
  | .hbm, ⟨54, _⟩ => ⟨S100000, .f32⟩
  | .hbm, ⟨55, _⟩ => ⟨S100000x1, .f32⟩
  | .hbm, ⟨56, _⟩ => ⟨S100000x64, .f32⟩
  | .hbm, ⟨57, _⟩ => ⟨S100000x64, .f32⟩
  | .hbm, ⟨58, _⟩ => ⟨S100000x16, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S64x16, .f32⟩
  | .local _ .vmem, ⟨9, _⟩ => ⟨S16, .f32⟩
  | .local _ .vmem, ⟨10, _⟩ => ⟨S5000x16, .f32⟩
  | .local _ .vmem, ⟨11, _⟩ => ⟨S5000x16, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_c_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_7 : Ref sig .tc := ⟨.hbm, 46, rfl⟩
abbrev main_v30 : Ref sig .tc := ⟨.hbm, 47, rfl⟩
abbrev main_cst_8 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_9 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x16_S64x16_0_0 : ∀ a, (![0, 0] : Fin 2 → Nat) a + S64x16.size a ≤ S64x16.size a
  h_S64x16 : 0 < S64x16.numel
  inb_S16_S16_0 : ∀ a, (![0] : Fin 1 → Nat) a + S16.size a ≤ S16.size a
  h_S16 : 0 < S16.numel
  shapeCasts_S16_S1x16 : S16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S5000x64_S64x64_S5000x64_1_0_0_1_n_n_wf : DotDims.WF S5000x64 S64x64 S5000x64 [1] [0] [0] [1] [] []
  dot_S5000x64_S64x16_S5000x16_1_0_0_1_n_n_wf : DotDims.WF S5000x64 S64x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x16.size a ≤ S64x16.size a
  hwx1_1 : ∀ i : grid1.Coords, EltTy.bits .f32 = 32 ∨ (Rect.block (s := S64x16) S64x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16.size a ≤ S16.size a
  hwx1_2 : ∀ i : grid1.Coords, EltTy.bits .f32 = 32 ∨ (Rect.block (s := S16) S16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x16.size a ≤ S100000x16.size a
  hwx1_3 : ∀ i : grid1.Coords, EltTy.bits .f32 = 32 ∨ (Rect.block (s := S100000x16) S5000x16.size (cc1_transform_3 i) (hinb1_3 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf

abbrev win0_0 : Pipeline.Window sig grid0 :=
  Pipeline.Window.ofSpec (Memref.whole main_v18) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v38) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S5000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S100000x16 : Shape := ⟨2, ![100000, 16]⟩
abbrev S1x16 : Shape := ⟨2, ![1, 16]⟩

abbrev nBuf : Space → Nat
  | .hbm => 68
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S64x16, .f32⟩
  | .hbm, ⟨6, _⟩ => ⟨S16, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x64, .f32⟩
  | .hbm, ⟨16, _⟩ => ⟨S_, .f32⟩
  | .hbm, ⟨17, _⟩ => ⟨S100000x64, .f32⟩
  | .hbm, ⟨18, _⟩ => ⟨S1600000x1, .i32⟩
  | .hbm, ⟨19, _⟩ => ⟨S100000x64, .f32⟩
  | .hbm, ⟨20, _⟩ => ⟨S_, .f32⟩
  | .hbm, ⟨21, _⟩ => ⟨S1600000, .f32⟩
  | .hbm, ⟨22, _⟩ => ⟨S_, .f32⟩
  | .hbm, ⟨23, _⟩ => ⟨S100000, .f32⟩
  | .hbm, ⟨24, _⟩ => ⟨S1600000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x64, .f32⟩
  | .hbm, ⟨31, _⟩ => ⟨S100000x64, .f32⟩
  | .hbm, ⟨32, _⟩ => ⟨S100000x64, .f32⟩
  | .hbm, ⟨33, _⟩ => ⟨S1x64, .f32⟩
  | .hbm, ⟨34, _⟩ => ⟨S100000x64, .f32⟩
  | .hbm, ⟨35, _⟩ => ⟨S100000x64, .f32⟩
  | .hbm, ⟨36, _⟩ => ⟨S_, .f32⟩
  | .hbm, ⟨37, _⟩ => ⟨S100000x64, .f32⟩
  | .hbm, ⟨38, _⟩ => ⟨S100000x64, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x64, .f32⟩
  | .hbm, ⟨48, _⟩ => ⟨S_, .f32⟩
  | .hbm, ⟨49, _⟩ => ⟨S100000x64, .f32⟩
  | .hbm, ⟨50, _⟩ => ⟨S1600000x1, .i32⟩
  | .hbm, ⟨51, _⟩ => ⟨S100000x64, .f32⟩
  | .hbm, ⟨52, _⟩ => ⟨S_, .f32⟩
  | .hbm, ⟨53, _⟩ => ⟨S1600000, .f32⟩
  | .hbm, ⟨54, _⟩ => ⟨S_, .f32⟩
  | .hbm, ⟨55, _⟩ => ⟨S100000, .f32⟩
  | .hbm, ⟨56, _⟩ => ⟨S1600000x1, .i32⟩
  | .hbm, ⟨57, _⟩ => ⟨S100000, .f32⟩
  | .hbm, ⟨58, _⟩ => ⟨S_, .f32⟩
  | .hbm, ⟨59, _⟩ => ⟨S100000, .f32⟩
  | .hbm, ⟨60, _⟩ => ⟨S100000, .f32⟩
  | .hbm, ⟨61, _⟩ => ⟨S100000x1, .f32⟩
  | .hbm, ⟨62, _⟩ => ⟨S100000x64, .f32⟩
  | .hbm, ⟨63, _⟩ => ⟨S100000x64, .f32⟩
  | .hbm, ⟨64, _⟩ => ⟨S100000x16, .f32⟩
  | .hbm, ⟨65, _⟩ => ⟨S1x16, .f32⟩
  | .hbm, ⟨66, _⟩ => ⟨S100000x16, .f32⟩
  | .hbm, ⟨67, _⟩ => ⟨S100000x16, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call0_cst : Ref sig .tc := ⟨.hbm, 36, rfl⟩
abbrev main_call0_v0 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_9 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  dot_S100000x64_S64x16_S100000x16_1_0_0_1_n_n_wf : DotDims.WF S100000x64 S64x16 S100000x16 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf

class Facts : Prop extends Facts₀ where

variable [Facts]
-- ==== Proof.NeighbourMean.lean ====
/-
  The mean over incoming neighbours, as ONE function of a feature matrix and the two edge lists.

  For node features `x` (100000 × 64), edge sources `src` and edge destinations `dst` (1600000 each): gather the
  source rows (a negative source index counted from the end, as array indexing does), add each gathered row into its
  destination's row, count the edges arriving at each node, and divide each summed row by max(count, 1).
  Both layers of the network aggregate this way, and so does the reference; nothing below ever opens this function:
  the two programs apply it to equal arguments.
-/
import proofs.«108279_j51049981281479_1_alg».proof.KernelIdeal

noncomputable section

namespace Cert.KernelIdeal

open Idealize.ShloMosaic

variable {F : FTy → Type} [FloatOps F] [Facts]
open Facts₀ Facts

/-- Row n of the result is (Σ over edges e with dst e = n of x(src e, ·)) / max(#{e : dst e = n}, 1). -/
def neighbourMean (x : (⟨S100000x64, .f32⟩ : BufTy).Contents (Elt F)) (src dst : (⟨S1600000, .i32⟩ : BufTy).Contents (Elt F)) :
    (⟨S100000x64, .f32⟩ : BufTy).Contents (Elt F) :=
  Host.divf
    (Host.scatterAdd scatter_S100000x64_S1600000x1_S1600000x64_1_0_0_1
      (broadcastInDim S100000x64 ![] bcast_S_S100000x64 (constant S_ .f32 0x00000000#32))
      (broadcastInDim S1600000x1 ![0] bcast_S1600000_S1600000x1_0 dst)
      (Host.gather gather_S100000x64_S1600000x1_S1600000x64_1_0_n_n_0_1_164 x
        (broadcastInDim S1600000x1 ![0] bcast_S1600000_S1600000x1_0
          (select
            (cmpi .slt src (broadcastInDim S1600000 ![] bcast_S_S1600000 (constantI S_ 32 0#32)))
            (addi src (broadcastInDim S1600000 ![] bcast_S_S1600000 (constantI S_ 32 100000#32)))
            src))))
    (broadcastInDim S100000x64 ![0, 1] bcast_S100000x1_S100000x64_0_1
      (broadcastInDim S100000x1 ![0] bcast_S100000_S100000x1_0
        (maximumf
          (Host.scatterAdd scatter_S100000_S1600000x1_S1600000_n_0_0_1
            (broadcastInDim S100000 ![] bcast_S_S100000 (constant S_ .f32 0x00000000#32))
            (broadcastInDim S1600000x1 ![0] bcast_S1600000_S1600000x1_0 dst)
            (broadcastInDim S1600000 ![] bcast_S_S1600000 (constant S_ .f32 0x3F800000#32)))
          (broadcastInDim S100000 ![] bcast_S_S100000 (constant S_ .f32 0x3F800000#32)))))

end Cert.KernelIdeal

end
-- ==== Proof.Boundary.lean ====
/-
  What each dense layer's region finds in its operands when it is entered.

  The program alternates host operations and regions. Before the first region the host operations form the neighbour
  mean of the input features; between the regions they form the neighbour mean of the hidden layer's result (the first
  region's output array), with the same edge lists. No host operation and no region writes an argument, so the weights,
  biases and edge lists a region or a stretch reads are the launch contents. The contents at the boundaries are the
  folds `W1` … `W4` of the frame: after the first stretch, after the first region, after the second stretch, after the
  second region.
-/
import proofs.«108279_j51049981281479_1_alg».proof.Proof.Gen.KernelIdeal.Frame
import proofs.«108279_j51049981281479_1_alg».proof.Proof.NeighbourMean
import Idealize.ShloMosaic.Lib.StableHlo.Run

set_option maxRecDepth 16384

noncomputable section

namespace Cert.KernelIdeal.Boundary

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## The arguments at the first region's entry: the first stretch writes none of them -/

theorem W1_arg1 (c : Dev nD) : W1 m ρ c (Proc.devRef .tc main_arg1) = m ((c : Thread nD τ).loc main_arg1) :=
  StableHlo.after_of_forall_not_mem (b := Proc.devRef .tc main_arg1) _ _ (List.forall_iff_forall_mem.mp (by
      simp only [hostOps0, List.Forall, StableHlo.nullary_writes, StableHlo.unary_writes, StableHlo.binary_writes, StableHlo.ternary_writes, Finset.mem_singleton]
      repeat' apply And.intro
      all_goals exact StableHlo.devRef_ne_of_ne (by decide)))
theorem W1_arg2 (c : Dev nD) : W1 m ρ c (Proc.devRef .tc main_arg2) = m ((c : Thread nD τ).loc main_arg2) :=
  StableHlo.after_of_forall_not_mem (b := Proc.devRef .tc main_arg2) _ _ (List.forall_iff_forall_mem.mp (by
      simp only [hostOps0, List.Forall, StableHlo.nullary_writes, StableHlo.unary_writes, StableHlo.binary_writes, StableHlo.ternary_writes, Finset.mem_singleton]
      repeat' apply And.intro
      all_goals exact StableHlo.devRef_ne_of_ne (by decide)))
theorem W1_arg3 (c : Dev nD) : W1 m ρ c (Proc.devRef .tc main_arg3) = m ((c : Thread nD τ).loc main_arg3) :=
  StableHlo.after_of_forall_not_mem (b := Proc.devRef .tc main_arg3) _ _ (List.forall_iff_forall_mem.mp (by
      simp only [hostOps0, List.Forall, StableHlo.nullary_writes, StableHlo.unary_writes, StableHlo.binary_writes, StableHlo.ternary_writes, Finset.mem_singleton]
      repeat' apply And.intro
      all_goals exact StableHlo.devRef_ne_of_ne (by decide)))
theorem W1_arg4 (c : Dev nD) : W1 m ρ c (Proc.devRef .tc main_arg4) = m ((c : Thread nD τ).loc main_arg4) :=
  StableHlo.after_of_forall_not_mem (b := Proc.devRef .tc main_arg4) _ _ (List.forall_iff_forall_mem.mp (by
      simp only [hostOps0, List.Forall, StableHlo.nullary_writes, StableHlo.unary_writes, StableHlo.binary_writes, StableHlo.ternary_writes, Finset.mem_singleton]
      repeat' apply And.intro
      all_goals exact StableHlo.devRef_ne_of_ne (by decide)))
theorem W1_arg5 (c : Dev nD) : W1 m ρ c (Proc.devRef .tc main_arg5) = m ((c : Thread nD τ).loc main_arg5) :=
  StableHlo.after_of_forall_not_mem (b := Proc.devRef .tc main_arg5) _ _ (List.forall_iff_forall_mem.mp (by
      simp only [hostOps0, List.Forall, StableHlo.nullary_writes, StableHlo.unary_writes, StableHlo.binary_writes, StableHlo.ternary_writes, Finset.mem_singleton]
      repeat' apply And.intro
      all_goals exact StableHlo.devRef_ne_of_ne (by decide)))
theorem W1_arg6 (c : Dev nD) : W1 m ρ c (Proc.devRef .tc main_arg6) = m ((c : Thread nD τ).loc main_arg6) :=
  StableHlo.after_of_forall_not_mem (b := Proc.devRef .tc main_arg6) _ _ (List.forall_iff_forall_mem.mp (by
      simp only [hostOps0, List.Forall, StableHlo.nullary_writes, StableHlo.unary_writes, StableHlo.binary_writes, StableHlo.ternary_writes, Finset.mem_singleton]
      repeat' apply And.intro
      all_goals exact StableHlo.devRef_ne_of_ne (by decide)))

/-! ## The first region leaves every buffer that is not one of its four arrays as it found it -/

theorem W2_arg1 (c : Dev nD) : W2 m ρ c (Proc.devRef .tc main_arg1) = m ((c : Thread nD τ).loc main_arg1) :=
  (W2_of_ne m ρ c main_arg1 (by decide)).trans (W1_arg1 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)

/-! ## The second stretch writes neither the output layer's weights nor its bias -/

theorem W3_arg5 (c : Dev nD) : W3 m ρ c (Proc.devRef .tc main_arg5) = m ((c : Thread nD τ).loc main_arg5) :=
  (StableHlo.after_of_forall_not_mem (b := Proc.devRef .tc main_arg5) _ _ (List.forall_iff_forall_mem.mp (by
      simp only [hostOps1, List.Forall, StableHlo.nullary_writes, StableHlo.unary_writes, StableHlo.binary_writes, StableHlo.ternary_writes, Finset.mem_singleton]
      repeat' apply And.intro
      all_goals exact StableHlo.devRef_ne_of_ne (by decide)))).trans (W2_arg5 m ρ c)
theorem W3_arg6 (c : Dev nD) : W3 m ρ c (Proc.devRef .tc main_arg6) = m ((c : Thread nD τ).loc main_arg6) :=
  (StableHlo.after_of_forall_not_mem (b := Proc.devRef .tc main_arg6) _ _ (List.forall_iff_forall_mem.mp (by
      simp only [hostOps1, List.Forall, StableHlo.nullary_writes, StableHlo.unary_writes, StableHlo.binary_writes, StableHlo.ternary_writes, Finset.mem_singleton]
      repeat' apply And.intro
      all_goals exact StableHlo.devRef_ne_of_ne (by decide)))).trans (W2_arg6 m ρ c)

/-! ## The aggregated features each region is entered with -/

set_option maxHeartbeats 16000000 in
/-- The first region's feature operand is the neighbour mean of the input features. -/
theorem first_features (c : Dev nD) :
    (V1 m ρ c main_v18 : (⟨S100000x64, .f32⟩ : BufTy).Contents (Elt F))
      = neighbourMean (m ((c : Thread nD τ).loc main_arg0)) (m ((c : Thread nD τ).loc main_arg1)) (m ((c : Thread nD τ).loc main_arg2)) := by
  dsimp only [V1, W1, hostOps0]
  after_results_simp
  rfl

set_option maxHeartbeats 16000000 in
/-- The second region's feature operand is the neighbour mean of what the first region left in its output array. -/
theorem second_features (c : Dev nD) :
    (V3 m ρ c main_v38 : (⟨S100000x64, .f32⟩ : BufTy).Contents (Elt F))
      = neighbourMean (V2 m ρ c main_v19) (m ((c : Thread nD τ).loc main_arg1)) (m ((c : Thread nD τ).loc main_arg2)) := by
  dsimp only [V3, W3, hostOps1]
  after_results_simp
  rw [W2_arg1, W2_arg2]
  rfl

end Cert.KernelIdeal.Boundary

end
-- ==== Proof.DenseLayer.lean ====
/-
  One dense layer of the network, as a function of whole arrays read index by index.

  For a node-feature matrix `x` (100000 rows, 64 columns), a weight matrix `w` (64 rows, n columns) and a bias
  `b` (n entries), entry (r, q) of the layer's output is the inner product of row r of `x` with column q of `w`,
  plus `b q`:  (x · w + b)(r, q) = Σ_k x(r, k) · w(k, q) + b(q).
  The hidden layer (n = 64) is followed by the rectifier max(·, 0); the output layer (n = 16) is not.
  Both are stated over the extended reals, with plain finite sums over the 64 contracted positions: whatever order
  or tiling a program uses to form the sum, this is the number it denotes there.
-/
import Idealize.ShloMosaic.PureOps.Ideal
import Idealize.ShloMosaic.Lib.ValueIdx

noncomputable section

namespace Cert.DenseLayer

open Idealize.ShloMosaic Idealize.ShloMosaic.ValueIdx

/-- The hidden layer: entry (r, q) is max(Σ_k x(r, k) · w(k, q) + b(q), 0). -/
def hidden (x : (⟨2, ![100000, 64]⟩ : Shape).Idx → EReal) (w : (⟨2, ![64, 64]⟩ : Shape).Idx → EReal)
    (b : (⟨1, ![64]⟩ : Shape).Idx → EReal) : (⟨2, ![100000, 64]⟩ : Shape).Idx → EReal :=
  fun i => max ((∑ k : Fin 64, x (ix2 (i 0) k) * w (ix2 k (i 1))) + b (ix1 (i 1))) 0

/-- The output layer: entry (r, q) is Σ_k x(r, k) · w(k, q) + b(q), for 16 output columns. -/
def output (x : (⟨2, ![100000, 64]⟩ : Shape).Idx → EReal) (w : (⟨2, ![64, 16]⟩ : Shape).Idx → EReal)
    (b : (⟨1, ![16]⟩ : Shape).Idx → EReal) : (⟨2, ![100000, 16]⟩ : Shape).Idx → EReal :=
  fun i => (∑ k : Fin 64, x (ix2 (i 0) k) * w (ix2 k (i 1))) + b (ix1 (i 1))

theorem hidden_apply (x : (⟨2, ![100000, 64]⟩ : Shape).Idx → EReal) (w : (⟨2, ![64, 64]⟩ : Shape).Idx → EReal)
    (b : (⟨1, ![64]⟩ : Shape).Idx → EReal) (r : Fin 100000) (q : Fin 64) :
    hidden x w b (ix2 r q) = max ((∑ k : Fin 64, x (ix2 r k) * w (ix2 k q)) + b (ix1 q)) 0 := rfl

theorem output_apply (x : (⟨2, ![100000, 64]⟩ : Shape).Idx → EReal) (w : (⟨2, ![64, 16]⟩ : Shape).Idx → EReal)
    (b : (⟨1, ![16]⟩ : Shape).Idx → EReal) (r : Fin 100000) (q : Fin 16) :
    output x w b (ix2 r q) = (∑ k : Fin 64, x (ix2 r k) * w (ix2 k q)) + b (ix1 q) := rfl

end Cert.DenseLayer

end
-- ==== Proof.BlockPayload.lean ====
/-
  What one grid point's body stores, read at an entry of its block.

  Each region's body loads a block of 5000 rows of node features, the whole weight matrix and the whole bias vector,
  multiplies the block by the weights on the matrix unit into a zero accumulator, adds the bias along the rows, and (in
  the hidden layer only) takes the maximum with zero. Over the extended reals the two narrowings of the operands to a
  shorter float format are the identity and the matrix product into zeros is the plain sum over the 64 contracted
  positions, so entry (p, q) of the stored block is  Σ_k x(p, k) · w(k, q) + b(q)  (its maximum with 0 in the hidden layer).
-/
import proofs.«108279_j51049981281479_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BlockPayload

open Cert.KernelIdeal Cert.KernelIdeal.Gen
open Idealize.ShloMosaic Idealize.ShloMosaic.TcCoe Idealize.SL.Sem Idealize.ShloMosaic.ValueIdx

/-! ### The block product `dot_S5000x64_S64x64_S5000x64_1_0_0_1_n_n`: which operand entries meet at an output entry -/

theorem hid_lhs_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem hid_lhs_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem hid_rhs_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem hid_rhs_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-! ### The block product `dot_S5000x64_S64x16_S5000x16_1_0_0_1_n_n`: which operand entries meet at an output entry -/

theorem out_lhs_0 (i : S5000x16.Idx) (q : dot_S5000x64_S64x16_S5000x16_1_0_0_1_n_n.contr.Idx) :
    (dot_S5000x64_S64x16_S5000x16_1_0_0_1_n_n.lhsIdx i q 0).val = (i 0).val := by
  unfold DotDims.lhsIdx
  rw [dif_neg (show ¬(0 : Fin S5000x64.rank) ∈ dot_S5000x64_S64x16_S5000x16_1_0_0_1_n_n.lhsBatch by decide), dif_pos (show (0 : Fin S5000x64.rank) ∈ dot_S5000x64_S64x16_S5000x16_1_0_0_1_n_n.lhsNonContracting by decide)]
  rfl
theorem out_lhs_1 (i : S5000x16.Idx) (q : dot_S5000x64_S64x16_S5000x16_1_0_0_1_n_n.contr.Idx) :
    (dot_S5000x64_S64x16_S5000x16_1_0_0_1_n_n.lhsIdx i q 1).val = (q ⟨0, by decide⟩).val :=
  dot_S5000x64_S64x16_S5000x16_1_0_0_1_n_n.lhsIdx_val_of_single rfl i q
theorem out_rhs_0 (i : S5000x16.Idx) (q : dot_S5000x64_S64x16_S5000x16_1_0_0_1_n_n.contr.Idx) :
    (dot_S5000x64_S64x16_S5000x16_1_0_0_1_n_n.rhsIdx i q 0).val = (q ⟨0, by decide⟩).val :=
  dot_S5000x64_S64x16_S5000x16_1_0_0_1_n_n.rhsIdx_val_of_single rfl i q
theorem out_rhs_1 (i : S5000x16.Idx) (q : dot_S5000x64_S64x16_S5000x16_1_0_0_1_n_n.contr.Idx) :
    (dot_S5000x64_S64x16_S5000x16_1_0_0_1_n_n.rhsIdx i q 1).val = (i 1).val := by
  unfold DotDims.rhsIdx
  rw [dif_neg (show ¬(1 : Fin S64x16.rank) ∈ dot_S5000x64_S64x16_S5000x16_1_0_0_1_n_n.rhsBatch by decide), dif_pos (show (1 : Fin S64x16.rank) ∈ dot_S5000x64_S64x16_S5000x16_1_0_0_1_n_n.rhsNonContracting by decide)]
  rfl

/-- The hidden layer's block product into zeros, at entry (p, q): row p of the block against column q of the weights. -/
theorem hidden_product (l : FVec Ideal S5000x64 .bf16) (r : FVec Ideal S64x64 .bf16) (p : Fin 5000) (q : Fin 64) :
    matmul dot_S5000x64_S64x64_S5000x64_1_0_0_1_n_n none l r (constant S5000x64 .f32 0x00000000#32) (ix2 p q)
      = ∑ k : Fin 64, l (ix2 p k) * r (ix2 k q) := by
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact hid_lhs_0 _ _
    | ⟨1, _⟩ => exact (hid_lhs_1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (hid_rhs_0 _ _).trans hk
    | ⟨1, _⟩ => exact hid_rhs_1 _ _)
  rw [el, er]

/-- The output layer's block product into zeros, at entry (p, q). -/
theorem output_product (l : FVec Ideal S5000x64 .bf16) (r : FVec Ideal S64x16 .bf16) (p : Fin 5000) (q : Fin 16) :
    matmul dot_S5000x64_S64x16_S5000x16_1_0_0_1_n_n none l r (constant S5000x16 .f32 0x00000000#32) (ix2 p q)
      = ∑ k : Fin 64, l (ix2 p k) * r (ix2 k q) := by
  simp only [matmul]
  rw [Ideal.matmul_constant_zero_apply, ← Equiv.sum_comp (ValueIdx.contrEquiv1 dot_S5000x64_S64x16_S5000x16_1_0_0_1_n_n 64 rfl rfl).symm]
  refine Finset.sum_congr rfl fun k _ => ?_
  have hk := ValueIdx.contrEquiv1_symm_val dot_S5000x64_S64x16_S5000x16_1_0_0_1_n_n 64 rfl rfl k
  have el : dot_S5000x64_S64x16_S5000x16_1_0_0_1_n_n.lhsIdx (ix2 p q) ((ValueIdx.contrEquiv1 dot_S5000x64_S64x16_S5000x16_1_0_0_1_n_n 64 rfl rfl).symm k) = ix2 p k := funext fun a => Fin.ext (by
    match a with
    | ⟨0, _⟩ => exact out_lhs_0 _ _
    | ⟨1, _⟩ => exact (out_lhs_1 _ _).trans hk)
  have er : dot_S5000x64_S64x16_S5000x16_1_0_0_1_n_n.rhsIdx (ix2 p q) ((ValueIdx.contrEquiv1 dot_S5000x64_S64x16_S5000x16_1_0_0_1_n_n 64 rfl rfl).symm k) = ix2 k q := funext fun a => Fin.ext (by
    match a with
    | ⟨0, _⟩ => exact (out_rhs_0 _ _).trans hk
    | ⟨1, _⟩ => exact out_rhs_1 _ _)
  rw [el, er]

/-- The bias laid along the rows of a 5000 × 64 block: entry (p, q) is `b q`. -/
theorem hidden_bias (b : FVec Ideal S64 .f32) (p : Fin 5000) (q : Fin 64) :
    broadcastTo S5000x64 (shapeCast S1x64 b shapeCasts_S64_S1x64) broadcasts_S1x64_S5000x64 (ix2 p q) = b (ix1 q) :=
  (broadcastTo_1b_ab_apply _ broadcasts_S1x64_S5000x64 p q).trans (shapeCast_a_1a_apply b shapeCasts_S64_S1x64 0 q)

/-- The bias laid along the rows of a 5000 × 16 block: entry (p, q) is `b q`. -/
theorem output_bias (b : FVec Ideal S16 .f32) (p : Fin 5000) (q : Fin 16) :
    broadcastTo S5000x16 (shapeCast S1x16 b shapeCasts_S16_S1x16) broadcasts_S1x16_S5000x16 (ix2 p q) = b (ix1 q) :=
  (broadcastTo_1b_ab_apply _ broadcasts_S1x16_S5000x16 p q).trans (shapeCast_a_1a_apply b shapeCasts_S16_S1x16 0 q)

/-- The hidden layer's stored block at entry (p, q): max(Σ_k x(p, k) · w(k, q) + b(q), 0). -/
theorem hidden_pay_apply (x : Vec Ideal S5000x64 .f32) (w : Vec Ideal S64x64 .f32) (b : Vec Ideal S64 .f32) (p : Fin 5000) (q : Fin 64) :
    k0_pay1 x w b (ix2 p q) = max ((∑ k : Fin 64, x (ix2 p k) * w (ix2 k q)) + b (ix1 q)) 0 := by
  unfold k0_pay1
  rw [maximumf_apply, addf_apply, hidden_product, hidden_bias, broadcast_apply]
  simp only [truncf_apply, shapeCast_self]
  exact congrArg (max _) Ideal.ofBits_zero_f32

/-- The output layer's stored block at entry (p, q): Σ_k x(p, k) · w(k, q) + b(q). -/
theorem output_pay_apply (x : Vec Ideal S5000x64 .f32) (w : Vec Ideal S64x16 .f32) (b : Vec Ideal S16 .f32) (p : Fin 5000) (q : Fin 16) :
    k1_pay1 x w b (ix2 p q) = (∑ k : Fin 64, x (ix2 p k) * w (ix2 k q)) + b (ix1 q) := by
  unfold k1_pay1
  rw [addf_apply, output_product, output_bias]
  simp only [truncf_apply, shapeCast_self]

end Cert.KernelIdeal.BlockPayload

end
-- ==== Proof.HiddenArray.lean ====
/-
  The hidden layer's region: its output array after the run of its grid, as one function of its operand arrays.

  The region's grid has 20 points; point t fetches rows 5000·t … 5000·t + 4999 of the feature array, the whole weight
  matrix and the whole bias, and writes its stored block back to the same rows of the output array. The blocks of the
  20 points tile the 100000 rows, so every entry of the output array is written by exactly the point t = row / 5000, and
  the array after the region is one function of the arrays the region found: entry (r, q) is max(Σ_k x(r, k) · w(k, q) + b(q), 0).
-/
import proofs.«108279_j51049981281479_1_alg».proof.Proof.Gen.KernelIdeal.Frame
import proofs.«108279_j51049981281479_1_alg».proof.Proof.DenseLayer
import proofs.«108279_j51049981281479_1_alg».proof.Proof.BlockPayload
import Idealize.ShloMosaic.Lib.Pipeline.Value
import Idealize.ShloMosaic.Lib.ValueIdx

set_option maxRecDepth 16384

noncomputable section

namespace Cert.KernelIdeal.HiddenArray

open Cert.KernelIdeal Cert.KernelIdeal.Gen Cert.KernelIdeal.BlockPayload Cert.DenseLayer
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The printed index maps over the grid: the feature window and the output window move down the rows with the point,
    the weight and bias windows stay at their one block. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Entry (p, k) of the feature block at point t is entry (5000·t + p, k) of the feature array. -/
theorem feature_block (c : Dev nD) (t : Fin cfg0.N) (p : Fin 5000) (k : Fin 64) (r : Fin 100000) (hr : r.val = t.val * 5000 + p.val) :
    (iblk0 V c 0 t : Vec Ideal S5000x64 .f32) (ix2 p k) = (V c main_v18 : S100000x64.Idx → EReal) (ix2 r k) := by
  obtain ⟨e0, e1, -⟩ := block_indices t
  unfold iblk0
  rw [View.read_apply]
  show V c main_v18 _ = V c main_v18 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 64 + 1 * k.val = k.val; rw [e1]; omega

/-- The weight window's block at every point is the whole weight matrix. -/
theorem weight_block (c : Dev nD) (t : Fin cfg0.N) : (iblk0 V c 1 t : Vec Ideal S64x64 .f32) = V c main_arg3 := by
  obtain ⟨-, -, e2, e3, -⟩ := block_indices t
  funext y
  unfold iblk0
  rw [View.read_apply]
  show V c main_arg3 _ = V c main_arg3 y
  congr 1
  funext a
  apply Fin.ext
  match a with
  | ⟨0, _⟩ => show win0_1.index t (0 : Fin 2) * 64 + 1 * (y 0).val = (y 0).val; rw [e2]; omega
  | ⟨1, _⟩ => show win0_1.index t (1 : Fin 2) * 64 + 1 * (y 1).val = (y 1).val; rw [e3]; omega

/-- The bias window's block at every point is the whole bias vector. -/
theorem bias_block (c : Dev nD) (t : Fin cfg0.N) : (iblk0 V c 2 t : Vec Ideal S64 .f32) = V c main_arg4 := by
  obtain ⟨-, -, -, -, e4, -⟩ := block_indices t
  funext y
  unfold iblk0
  rw [View.read_apply]
  show V c main_arg4 _ = V c main_arg4 y
  congr 1
  funext a
  apply Fin.ext
  match a with
  | ⟨0, _⟩ => show win0_2.index t (0 : Fin 1) * 64 + 1 * (y 0).val = (y 0).val; rw [e4]; omega

/-- Entry (p, q) of the output window's block at point t sits at (5000·t + p, q) in the output array. -/
theorem output_position (t : Fin cfg0.N) (p : Fin 5000) (q : Fin 64) (r : Fin 100000) (hr : r.val = t.val * 5000 + p.val) :
    ((cfg0.win 3).blk t).view.emb (ix2 p q) = (ix2 r q : S100000x64.Idx) := by
  obtain ⟨-, -, -, -, -, e5, e6⟩ := block_indices t
  funext a
  apply Fin.ext
  match a with
  | ⟨0, _⟩ => show win0_3.index t (0 : Fin 2) * 5000 + 1 * p.val = r.val; rw [e5, hr]; omega
  | ⟨1, _⟩ => show win0_3.index t (1 : Fin 2) * 64 + 1 * q.val = q.val; rw [e6]; omega

/-- WHAT POINT t WRITES BACK is block t of the layer's function of the arrays the region found. -/
theorem written_back (c : Dev nD) (t : Fin cfg0.N) :
    (dat0 V c).flushed 3 t
      = ((cfg0.win 3).blk t).view.read (Elt Ideal) (hidden (V c main_v18) (V c main_arg3) (V c main_arg4)) := by
  show (cfg0.win 3).cut (grid0.coords t) ((dat0 V c).after 3 t) = _
  rw [after0_3]
  unfold out0_3
  rw [View.canon_unit_zero zeros2]
  simp only [View.ld_unit_zero (S := S5000x64) zeros2, View.ld_unit_zero (S := S64x64) zeros2, View.ld_unit_zero (S := S64) zeros1]
  rw [weight_block, bias_block]
  funext j
  obtain ⟨p, q, rfl⟩ : ∃ (p : Fin 5000) (q : Fin 64), j = ix2 p q := ⟨j 0, j 1, eq_ix2 j⟩
  have hlt : t.val * 5000 + p.val < 100000 := by
    have ht : t.val < 20 := lt_of_lt_of_eq t.isLt N_0
    have := p.isLt; omega
  show k0_pay1 (iblk0 V c 0 t) (V c main_arg3) (V c main_arg4) (ix2 p q)
    = hidden (V c main_v18) (V c main_arg3) (V c main_arg4) (((cfg0.win 3).blk t).view.emb (ix2 p q))
  rw [output_position t p q ⟨t.val * 5000 + p.val, hlt⟩ rfl, hidden_apply]
  refine (hidden_pay_apply (iblk0 V c 0 t) (V c main_arg3) (V c main_arg4) p q).trans ?_
  refine congrArg (fun s => max (s + V c main_arg4 (ix1 q)) 0) (Finset.sum_congr rfl fun k _ => ?_)
  exact congrArg (· * V c main_arg3 (ix2 k q)) (feature_block V c t p k ⟨t.val * 5000 + p.val, hlt⟩ rfl)

/-- An index of the output array is in point t's block iff each coordinate is in the block's range on its axis. -/
theorem in_block_iff (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v19).slice (win0_3.rect t)).set ↔ _
  rw [View.set_slice_whole, Rect.mem_set_unit]
  exact Iff.rfl

/-- Every entry of the output array is written back by the point its row falls to. -/
theorem covered (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 20 := N_0
  refine ⟨⟨(i 0).val / 5000, by rw [hN]; omega⟩, flush0_3 _, ?_⟩
  rw [in_block_iff]
  obtain ⟨-, -, -, -, -, e5, e6⟩ := block_indices ⟨(i 0).val / 5000, by rw [hN]; omega⟩
  intro a
  match a with
  | ⟨0, _⟩ =>
    show win0_3.index _ (0 : Fin 2) * 5000 ≤ (i 0).val ∧ (i 0).val < win0_3.index _ (0 : Fin 2) * 5000 + 5000
    rw [e5]; show (i 0).val / 5000 * 5000 ≤ (i 0).val ∧ (i 0).val < (i 0).val / 5000 * 5000 + 5000; omega
  | ⟨1, _⟩ =>
    show win0_3.index _ (1 : Fin 2) * 64 ≤ (i 1).val ∧ (i 1).val < win0_3.index _ (1 : Fin 2) * 64 + 64
    rw [e6]; omega

/-- THE OUTPUT ARRAY after the region, whatever contents `V` the region was entered with. -/
theorem array_after (c : Dev nD) :
    (dat0 V c).arrAt 3 cfg0.N = hidden (V c main_v18) (V c main_arg3) (V c main_arg4) :=
  (dat0 V c).arrAt_eq_of_cover 3 _ (fun t _ => written_back V c t) covered

end Cert.KernelIdeal.HiddenArray

end
-- ==== Proof.OutputArray.lean ====
/-
  The output layer's region: its output array after the run of its grid, as one function of its operand arrays.

  The region's grid has 20 points; point t fetches rows 5000·t … 5000·t + 4999 of the feature array, the whole weight
  matrix and the whole bias, and writes its stored block back to the same rows of the output array. The blocks of the
  20 points tile the 100000 rows, so every entry of the output array is written by exactly the point t = row / 5000, and
  the array after the region is one function of the arrays the region found: entry (r, q) is Σ_k x(r, k) · w(k, q) + b(q).
-/
import proofs.«108279_j51049981281479_1_alg».proof.Proof.Gen.KernelIdeal.Frame
import proofs.«108279_j51049981281479_1_alg».proof.Proof.DenseLayer
import proofs.«108279_j51049981281479_1_alg».proof.Proof.BlockPayload
import Idealize.ShloMosaic.Lib.Pipeline.Value
import Idealize.ShloMosaic.Lib.ValueIdx

set_option maxRecDepth 16384

noncomputable section

namespace Cert.KernelIdeal.OutputArray

open Cert.KernelIdeal Cert.KernelIdeal.Gen Cert.KernelIdeal.BlockPayload Cert.DenseLayer
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The printed index maps over the grid: the feature window and the output window move down the rows with the point,
    the weight and bias windows stay at their one block. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- Entry (p, k) of the feature block at point t is entry (5000·t + p, k) of the feature array. -/
theorem feature_block (c : Dev nD) (t : Fin cfg1.N) (p : Fin 5000) (k : Fin 64) (r : Fin 100000) (hr : r.val = t.val * 5000 + p.val) :
    (iblk1 V c 0 t : Vec Ideal S5000x64 .f32) (ix2 p k) = (V c main_v38 : S100000x64.Idx → EReal) (ix2 r k) := by
  obtain ⟨e0, e1, -⟩ := block_indices t
  unfold iblk1
  rw [View.read_apply]
  show V c main_v38 _ = V c main_v38 _
  congr 1
  funext a
  apply Fin.ext
  match a with
  | ⟨0, _⟩ => show win1_0.index t (0 : Fin 2) * 5000 + 1 * p.val = r.val; rw [e0, hr]; omega
  | ⟨1, _⟩ => show win1_0.index t (1 : Fin 2) * 64 + 1 * k.val = k.val; rw [e1]; omega

/-- The weight window's block at every point is the whole weight matrix. -/
theorem weight_block (c : Dev nD) (t : Fin cfg1.N) : (iblk1 V c 1 t : Vec Ideal S64x16 .f32) = V c main_arg5 := by
  obtain ⟨-, -, e2, e3, -⟩ := block_indices t
  funext y
  unfold iblk1
  rw [View.read_apply]
  show V c main_arg5 _ = V c main_arg5 y
  congr 1
  funext a
  apply Fin.ext
  match a with
  | ⟨0, _⟩ => show win1_1.index t (0 : Fin 2) * 64 + 1 * (y 0).val = (y 0).val; rw [e2]; omega
  | ⟨1, _⟩ => show win1_1.index t (1 : Fin 2) * 16 + 1 * (y 1).val = (y 1).val; rw [e3]; omega

/-- The bias window's block at every point is the whole bias vector. -/
theorem bias_block (c : Dev nD) (t : Fin cfg1.N) : (iblk1 V c 2 t : Vec Ideal S16 .f32) = V c main_arg6 := by
  obtain ⟨-, -, -, -, e4, -⟩ := block_indices t
  funext y
  unfold iblk1
  rw [View.read_apply]
  show V c main_arg6 _ = V c main_arg6 y
  congr 1
  funext a
  apply Fin.ext
  match a with
  | ⟨0, _⟩ => show win1_2.index t (0 : Fin 1) * 16 + 1 * (y 0).val = (y 0).val; rw [e4]; omega

/-- Entry (p, q) of the output window's block at point t sits at (5000·t + p, q) in the output array. -/
theorem output_position (t : Fin cfg1.N) (p : Fin 5000) (q : Fin 16) (r : Fin 100000) (hr : r.val = t.val * 5000 + p.val) :
    ((cfg1.win 3).blk t).view.emb (ix2 p q) = (ix2 r q : S100000x16.Idx) := by
  obtain ⟨-, -, -, -, -, e5, e6⟩ := block_indices t
  funext a
  apply Fin.ext
  match a with
  | ⟨0, _⟩ => show win1_3.index t (0 : Fin 2) * 5000 + 1 * p.val = r.val; rw [e5, hr]; omega
  | ⟨1, _⟩ => show win1_3.index t (1 : Fin 2) * 16 + 1 * q.val = q.val; rw [e6]; omega

/-- WHAT POINT t WRITES BACK is block t of the layer's function of the arrays the region found. -/
theorem written_back (c : Dev nD) (t : Fin cfg1.N) :
    (dat1 V c).flushed 3 t
      = ((cfg1.win 3).blk t).view.read (Elt Ideal) (output (V c main_v38) (V c main_arg5) (V c main_arg6)) := by
  show (cfg1.win 3).cut (grid1.coords t) ((dat1 V c).after 3 t) = _
  rw [after1_3]
  unfold out1_3
  rw [View.canon_unit_zero zeros2]
  simp only [View.ld_unit_zero (S := S5000x64) zeros2, View.ld_unit_zero (S := S64x16) zeros2, View.ld_unit_zero (S := S16) zeros1]
  rw [weight_block, bias_block]
  funext j
  obtain ⟨p, q, rfl⟩ : ∃ (p : Fin 5000) (q : Fin 16), j = ix2 p q := ⟨j 0, j 1, eq_ix2 j⟩
  have hlt : t.val * 5000 + p.val < 100000 := by
    have ht : t.val < 20 := lt_of_lt_of_eq t.isLt N_1
    have := p.isLt; omega
  show k1_pay1 (iblk1 V c 0 t) (V c main_arg5) (V c main_arg6) (ix2 p q)
    = output (V c main_v38) (V c main_arg5) (V c main_arg6) (((cfg1.win 3).blk t).view.emb (ix2 p q))
  rw [output_position t p q ⟨t.val * 5000 + p.val, hlt⟩ rfl, output_apply]
  refine (output_pay_apply (iblk1 V c 0 t) (V c main_arg5) (V c main_arg6) p q).trans ?_
  refine congrArg (fun s => s + V c main_arg6 (ix1 q)) (Finset.sum_congr rfl fun k _ => ?_)
  exact congrArg (· * V c main_arg5 (ix2 k q)) (feature_block V c t p k ⟨t.val * 5000 + p.val, hlt⟩ rfl)

/-- An index of the output array is in point t's block iff each coordinate is in the block's range on its axis. -/
theorem in_block_iff (t : Fin cfg1.N) (i : S100000x16.Idx) :
    i ∈ ((cfg1.win 3).blk t).view.set ↔ ∀ a : Fin 2, win1_3.index t a * S5000x16.size a ≤ (i a).val ∧ (i a).val < win1_3.index t a * S5000x16.size a + S5000x16.size a := by
  show i ∈ ((View.whole main_v39).slice (win1_3.rect t)).set ↔ _
  rw [View.set_slice_whole, Rect.mem_set_unit]
  exact Iff.rfl

/-- Every entry of the output array is written back by the point its row falls to. -/
theorem covered (i : S100000x16.Idx) : ∃ t : Fin cfg1.N, (cfg1.win 3).flush t = true ∧ i ∈ ((cfg1.win 3).blk t).view.set := by
  have hi0 : (i 0).val < 100000 := (i 0).isLt
  have hi1 : (i 1).val < 16 := (i 1).isLt
  have hN : cfg1.N = 20 := N_1
  refine ⟨⟨(i 0).val / 5000, by rw [hN]; omega⟩, flush1_3 _, ?_⟩
  rw [in_block_iff]
  obtain ⟨-, -, -, -, -, e5, e6⟩ := block_indices ⟨(i 0).val / 5000, by rw [hN]; omega⟩
  intro a
  match a with
  | ⟨0, _⟩ =>
    show win1_3.index _ (0 : Fin 2) * 5000 ≤ (i 0).val ∧ (i 0).val < win1_3.index _ (0 : Fin 2) * 5000 + 5000
    rw [e5]; show (i 0).val / 5000 * 5000 ≤ (i 0).val ∧ (i 0).val < (i 0).val / 5000 * 5000 + 5000; omega
  | ⟨1, _⟩ =>
    show win1_3.index _ (1 : Fin 2) * 16 ≤ (i 1).val ∧ (i 1).val < win1_3.index _ (1 : Fin 2) * 16 + 16
    rw [e6]; omega

/-- THE OUTPUT ARRAY after the region, whatever contents `V` the region was entered with. -/
theorem array_after (c : Dev nD) :
    (dat1 V c).arrAt 3 cfg1.N = output (V c main_v38) (V c main_arg5) (V c main_arg6) :=
  (dat1 V c).arrAt_eq_of_cover 3 _ (fun t _ => written_back V c t) covered

end Cert.KernelIdeal.OutputArray

end
-- ==== Proof.KernelValue.lean ====
/-
  What the program returns, as a function of its seven arguments.

  The result buffer is the second region's output array after that region. Reading the boundaries backwards: it is the
  output layer of the array the second region was entered with, which the second stretch of host operations made the
  neighbour mean of the first region's output array, which is the hidden layer of the array the first region was
  entered with, which the first stretch made the neighbour mean of the input features; weights, biases and edge lists
  are the launch contents throughout. So the program returns
      output layer ( neighbour mean ( hidden layer ( neighbour mean (features) ) ) ).
-/
import proofs.«108279_j51049981281479_1_alg».proof.Proof.KernelResultRun
import proofs.«108279_j51049981281479_1_alg».proof.Proof.Boundary
import proofs.«108279_j51049981281479_1_alg».proof.Proof.HiddenArray
import proofs.«108279_j51049981281479_1_alg».proof.Proof.OutputArray

set_option maxRecDepth 16384

noncomputable section

namespace Cert.KernelIdeal.Result

open Cert.KernelIdeal Cert.KernelIdeal.Gen Cert.KernelIdeal.Boundary Cert.DenseLayer
open Idealize.ShloMosaic Idealize.ShloMosaic.TcCoe Idealize.SL.Sem

variable (m : (ℓ : Loc nD τ sig) → Buf (Elt Ideal) ℓ) (ρ : Dev nD → PrngReg)

/-- The first region's output array after that region: the hidden layer of the neighbour mean of the features. -/
theorem hidden_array (c : Dev nD) :
    (V2 m ρ c main_v19 : (⟨S100000x64, .f32⟩ : BufTy).Contents (Elt Ideal))
      = hidden (neighbourMean (m ((c : Thread nD τ).loc main_arg0)) (m ((c : Thread nD τ).loc main_arg1)) (m ((c : Thread nD τ).loc main_arg2))) (m ((c : Thread nD τ).loc main_arg3)) (m ((c : Thread nD τ).loc main_arg4)) :=
  calc (V2 m ρ c main_v19 : (⟨S100000x64, .f32⟩ : BufTy).Contents (Elt Ideal))
    _ = (dat0 (V1 m ρ) c).arrAt 3 cfg0.N := W2_arr m ρ c 3
    _ = hidden (V1 m ρ c main_v18) (V1 m ρ c main_arg3) (V1 m ρ c main_arg4) := HiddenArray.array_after (V1 m ρ) c
    _ = _ := by
      rw [first_features m ρ c]
      exact congrArg₂ (hidden _) (W1_arg3 m ρ c) (W1_arg4 m ρ c)

/-- The result buffer at the last boundary: the whole network of the arguments. -/
theorem result_value (c : Dev nD) :
    (W4 m ρ c (Proc.devRef .tc main_v39) : (⟨S100000x16, .f32⟩ : BufTy).Contents (Elt Ideal))
      = output (neighbourMean (hidden (neighbourMean (m ((c : Thread nD τ).loc main_arg0)) (m ((c : Thread nD τ).loc main_arg1)) (m ((c : Thread nD τ).loc main_arg2))) (m ((c : Thread nD τ).loc main_arg3)) (m ((c : Thread nD τ).loc main_arg4))) (m ((c : Thread nD τ).loc main_arg1)) (m ((c : Thread nD τ).loc main_arg2))) (m ((c : Thread nD τ).loc main_arg5)) (m ((c : Thread nD τ).loc main_arg6)) :=
  calc (W4 m ρ c (Proc.devRef .tc main_v39) : (⟨S100000x16, .f32⟩ : BufTy).Contents (Elt Ideal))
    _ = (dat1 (V3 m ρ) c).arrAt 3 cfg1.N := W4_arr m ρ c 3
    _ = output (V3 m ρ c main_v38) (V3 m ρ c main_arg5) (V3 m ρ c main_arg6) := OutputArray.array_after (V3 m ρ) c
    _ = _ := by
      rw [second_features m ρ c, hidden_array m ρ c]
      exact congrArg₂ (output _) (W3_arg5 m ρ c) (W3_arg6 m ρ c)

/-- THE RUN, READ: every weakly fair execution terminates, nothing faulting, with the result buffer at the network
    of the arguments and the arguments as launched. -/
theorem run : θ_run defs (onTc (τ := τ) (main (F := Ideal))) ⟨m, fun _ => 0, ρ⟩ (fun r => ∀ c : Dev nD,
      r.2.mem ((c.tc : Thread nD τ).loc main_v39) = output (neighbourMean (hidden (neighbourMean (m ((c : Thread nD τ).loc main_arg0)) (m ((c : Thread nD τ).loc main_arg1)) (m ((c : Thread nD τ).loc main_arg2))) (m ((c : Thread nD τ).loc main_arg3)) (m ((c : Thread nD τ).loc main_arg4))) (m ((c : Thread nD τ).loc main_arg1)) (m ((c : Thread nD τ).loc main_arg2))) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_value m ρ c), (h c).2⟩) (run_result m ρ)

end Cert.KernelIdeal.Result

end
-- ==== Proof.ReferenceLayers.lean ====
/-
  The reference, layer by layer.

  The reference forms the neighbour mean of the input features, applies the hidden layer (a matrix product with the
  first weights, the first bias along the rows, the rectifier), forms the neighbour mean of that, and applies the output
  layer (a matrix product with the second weights, the second bias along the rows). Read at an entry, each matrix product
  is the plain sum over the 64 contracted positions and each bias is read at the entry's column, so the two layers are
  the dense-layer functions; and the two aggregations are, operation for operation, the neighbour mean.
-/
import proofs.«108279_j51049981281479_1_alg».proof.Proof.Gen.ReferenceIdeal.Read
import proofs.«108279_j51049981281479_1_alg».proof.Proof.Gen.KernelIdeal
import proofs.«108279_j51049981281479_1_alg».proof.Proof.NeighbourMean
import proofs.«108279_j51049981281479_1_alg».proof.Proof.DenseLayer

noncomputable section

namespace Cert.ReferenceIdeal.Layers

open Cert.ReferenceIdeal Cert.ReferenceIdeal.Gen Cert.ReferenceIdeal.Read Cert.DenseLayer
open Idealize.ShloMosaic Idealize.ShloMosaic.TcCoe Idealize.ShloMosaic.ValueIdx

/-! ## The two aggregations are the neighbour mean -/

theorem first_mean (x0 : (⟨S100000x64, .f32⟩ : BufTy).Contents (Elt Ideal)) (x1 x2 : (⟨S1600000, .i32⟩ : BufTy).Contents (Elt Ideal)) :
    val_main_v18 (F := Ideal) x0 x1 x2 = Cert.KernelIdeal.neighbourMean (F := Ideal) x0 x1 x2 := rfl

theorem second_mean (x0 : (⟨S100000x64, .f32⟩ : BufTy).Contents (Elt Ideal)) (x1 x2 : (⟨S1600000, .i32⟩ : BufTy).Contents (Elt Ideal))
    (x3 : (⟨S64x64, .f32⟩ : BufTy).Contents (Elt Ideal)) (x4 : (⟨S64, .f32⟩ : BufTy).Contents (Elt Ideal)) :
    val_main_v42 (F := Ideal) x0 x1 x2 x3 x4
      = Cert.KernelIdeal.neighbourMean (F := Ideal) (val_main_v23 (F := Ideal) x0 x1 x2 x3 x4) x1 x2 := rfl

/-! ## Which operand entries the two matrix products and the two biases read -/

theorem hidden_left (r : Fin 100000) (q k : Fin 64) : lidx_main_v19 (ix2 r q) k = ix2 r k :=
  funext fun a => Fin.ext (by match a with | ⟨0, _⟩ => rfl | ⟨1, _⟩ => rfl)
theorem hidden_right (r : Fin 100000) (q k : Fin 64) : ridx_main_v19 (ix2 r q) k = ix2 k q :=
  funext fun a => Fin.ext (by match a with | ⟨0, _⟩ => rfl | ⟨1, _⟩ => rfl)
theorem hidden_bias_at (r : Fin 100000) (q : Fin 64) : idx_main_v20 (idx_main_v21 (ix2 r q)) = ix1 q :=
  funext fun a => Fin.ext (by match a with | ⟨0, _⟩ => rfl)
theorem output_left (r : Fin 100000) (q : Fin 16) (k : Fin 64) : lidx_main_v43 (ix2 r q) k = ix2 r k :=
  funext fun a => Fin.ext (by match a with | ⟨0, _⟩ => rfl | ⟨1, _⟩ => rfl)
theorem output_right (r : Fin 100000) (q : Fin 16) (k : Fin 64) : ridx_main_v43 (ix2 r q) k = ix2 k q :=
  funext fun a => Fin.ext (by match a with | ⟨0, _⟩ => rfl | ⟨1, _⟩ => rfl)
theorem output_bias_at (r : Fin 100000) (q : Fin 16) : idx_main_v44 (idx_main_v45 (ix2 r q)) = ix1 q :=
  funext fun a => Fin.ext (by match a with | ⟨0, _⟩ => rfl)

/-! ## The two layers -/

/-- The rectified first layer is the hidden dense layer of the first neighbour mean. -/
theorem hidden_stage (x0 : (⟨S100000x64, .f32⟩ : BufTy).Contents (Elt Ideal)) (x1 x2 : (⟨S1600000, .i32⟩ : BufTy).Contents (Elt Ideal))
    (x3 : (⟨S64x64, .f32⟩ : BufTy).Contents (Elt Ideal)) (x4 : (⟨S64, .f32⟩ : BufTy).Contents (Elt Ideal)) :
    val_main_v23 (F := Ideal) x0 x1 x2 x3 x4 = hidden (val_main_v18 (F := Ideal) x0 x1 x2) x3 x4 := by
  funext i
  obtain ⟨r, q, rfl⟩ : ∃ (r : Fin 100000) (q : Fin 64), i = ix2 r q := ⟨i 0, i 1, eq_ix2 i⟩
  rw [val_main_v23_apply, val_main_v22_apply, val_main_v19_apply, val_main_v21_apply, val_main_v20_apply,
    val_main_call0_v0_apply, val_main_call0_cst_apply, hidden_apply]
  simp only [hidden_left, hidden_right, hidden_bias_at]
  exact congrArg (max _) Ideal.ofBits_zero_f32

/-- The second layer is the output dense layer of the second neighbour mean. -/
theorem output_stage (x0 : (⟨S100000x64, .f32⟩ : BufTy).Contents (Elt Ideal)) (x1 x2 : (⟨S1600000, .i32⟩ : BufTy).Contents (Elt Ideal))
    (x3 : (⟨S64x64, .f32⟩ : BufTy).Contents (Elt Ideal)) (x4 : (⟨S64, .f32⟩ : BufTy).Contents (Elt Ideal))
    (x5 : (⟨S64x16, .f32⟩ : BufTy).Contents (Elt Ideal)) (x6 : (⟨S16, .f32⟩ : BufTy).Contents (Elt Ideal)) :
    val_main_v46 (F := Ideal) x0 x1 x2 x3 x4 x5 x6 = output (val_main_v42 (F := Ideal) x0 x1 x2 x3 x4) x5 x6 := by
  funext i
  obtain ⟨r, q, rfl⟩ : ∃ (r : Fin 100000) (q : Fin 16), i = ix2 r q := ⟨i 0, i 1, eq_ix2 i⟩
  rw [val_main_v46_apply, val_main_v43_apply, val_main_v45_apply, val_main_v44_apply, output_apply]
  simp only [output_left, output_right, output_bias_at]
  rfl

/-- THE REFERENCE'S RESULT: output layer ∘ neighbour mean ∘ hidden layer ∘ neighbour mean, of the arguments. -/
theorem result_eq (x0 : (⟨S100000x64, .f32⟩ : BufTy).Contents (Elt Ideal)) (x1 x2 : (⟨S1600000, .i32⟩ : BufTy).Contents (Elt Ideal))
    (x3 : (⟨S64x64, .f32⟩ : BufTy).Contents (Elt Ideal)) (x4 : (⟨S64, .f32⟩ : BufTy).Contents (Elt Ideal))
    (x5 : (⟨S64x16, .f32⟩ : BufTy).Contents (Elt Ideal)) (x6 : (⟨S16, .f32⟩ : BufTy).Contents (Elt Ideal)) :
    val_main_v46 (F := Ideal) x0 x1 x2 x3 x4 x5 x6
      = output (Cert.KernelIdeal.neighbourMean (F := Ideal) (hidden (Cert.KernelIdeal.neighbourMean (F := Ideal) x0 x1 x2) x3 x4) x1 x2) x5 x6 := by
  rw [output_stage, second_mean, hidden_stage, first_mean]

end Cert.ReferenceIdeal.Layers

end
-- ==== Proof.lean ====
/-
  Two rounds of graph convolution — mean over incoming neighbours, a dense layer, the rectifier after the first round
  only — computed by a program whose two dense layers are pallas_calls over 5000-row blocks, against the same network
  written with whole-array matrix products.

  Over the extended reals the two programs are one function of the arguments,
      output layer ( neighbour mean ( hidden layer ( neighbour mean (features) ) ) ):
  the neighbour mean is the same host operations in both programs and is never opened; a dense layer's entry (r, q) is
  Σ_k x(r, k) · w(k, q) + b(q) on both sides — in the kernel the sum a block's matrix product into zeros denotes, the
  narrowing of its operands the identity, the blocks of the 20 grid points tiling the rows; in the reference the sum a
  whole-array `dot_general` denotes. The two sums run over the same 64 positions in the same order, so no law beyond
  reading both at an index is needed, and the precondition is not used.
  The three frames are the generated ones (the reference's is its run with the result dropped); the idealization rewrote
  nothing, so `preserves` is trivial.
-/
import proofs.«108279_j51049981281479_1_alg».proof.Defs
import proofs.«108279_j51049981281479_1_alg».proof.Proof.Gen.Kernel
import proofs.«108279_j51049981281479_1_alg».proof.Proof.Gen.Kernel.Frame
import proofs.«108279_j51049981281479_1_alg».proof.Proof.Gen.KernelIdeal
import proofs.«108279_j51049981281479_1_alg».proof.Proof.Gen.KernelIdeal.Frame
import proofs.«108279_j51049981281479_1_alg».proof.Proof.Gen.ReferenceIdeal
import proofs.«108279_j51049981281479_1_alg».proof.Proof.Gen.ReferenceIdeal.Run
import proofs.«108279_j51049981281479_1_alg».proof.Proof.Gen.ReferenceIdeal.Read
import proofs.«108279_j51049981281479_1_alg».proof.Proof.Gen.Pre_finite_inputs
import proofs.«108279_j51049981281479_1_alg».proof.Proof.KernelValue
import proofs.«108279_j51049981281479_1_alg».proof.Proof.ReferenceLayers
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- Both programs end with the network of the arguments in their result buffers. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  refine ((Cert.ReferenceIdeal.Read.val_main_v46_eq (F := Ideal) _ _ _ _ _ _ _).trans
    (Cert.ReferenceIdeal.Layers.result_eq _ _ _ _ _ _ _)).trans ?_
  rw [h0, h1, h2, h3, h4, h5, h6]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
